-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16384x1024 .f32) (main_arg1 : FVec F S1024x1024 .f32) (main_arg2 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S16384x1024 : Shape := ⟨2, ![16384, 1024]⟩
abbrev S1024x1024 : Shape := ⟨2, ![1024, 1024]⟩
abbrev S1024 : Shape := ⟨1, ![1024]⟩
abbrev S1x1024x1024 : Shape := ⟨3, ![1, 1024, 1024]⟩
abbrev S1 : Shape := ⟨1, ![1]⟩
abbrev S1x1x1 : Shape := ⟨3, ![1, 1, 1]⟩
abbrev S1x1024 : Shape := ⟨2, ![1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S1024x1024, .bf16⟩
  | .hbm, ⟨4, _⟩ => ⟨S16384x1024, .f32⟩
  | .local _ .vmem, ⟨0, _⟩ => ⟨S1024x1024, .f32⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .f32⟩
  | .local _ .vmem, ⟨7, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg3_1 : Ref sig .tc := ⟨.vmem, 7, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem3_0 : DmaSem sig := 6
abbrev cc1_sem3_1 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  natLt_1_32 : 1 < 32
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  transposes_S1024x1024_p1_0_S1024x1024 : S1024x1024.Transposes [1, 0] S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x1024.size a
  hwx1_0 : ∀ i : grid1.Coords, EltTy.bits .f32 = 32 ∨ (Rect.block (s := S16384x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S16384x1024.size a
  hwx1_3 : ∀ i : grid1.Coords, EltTy.bits .f32 = 32 ∨ (Rect.block (s := S16384x1024) S1024x1024.size (cc1_transform_3 i) (hinb1_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg1) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S1024x1024, .f32⟩
  | .hbm, ⟨5, _⟩ => ⟨S1024x1024, .i1⟩
  | .hbm, ⟨6, _⟩ => ⟨S1024x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x1024_S1024x1024_S16384x1024_1_1_0_0_n_n_wf : DotDims.WF S16384x1024 S1024x1024 S16384x1024 [1] [1] [0] [0] [] []

variable [Facts₀]

def dot_S16384x1024_S1024x1024_S16384x1024_1_1_0_0_n_n : DotDims S16384x1024 S1024x1024 S16384x1024 where
  lhsContracting := [1]
  rhsContracting := [1]
  lhsNonContracting := [0]
  rhsNonContracting := [0]
  lhsBatch := []
  rhsBatch := []
  wf := dot_S16384x1024_S1024x1024_S16384x1024_1_1_0_0_n_n_wf

class Facts : Prop extends Facts₀ where

variable [Facts]
-- ==== Proof.LibReduceTotal.lean ====
/-
  Reductions over EVERY axis, read free of the order they fold in.

  A maximum or minimum over all entries of an array does not depend on how the entries are enumerated: the
  operation is commutative and associative, so the reduction is the fold over the SET of all indices. Three
  consequences are stated here, for any shapes and any such operation:
  • re-indexing the family by a bijection leaves the fold unchanged (`fold_univ_comp_equiv`), in particular a shape
    cast of the operand, which only renames indices by their row-major position (`fold_univ_shapeCast`);
  • a `vector.multi_reduction <maximumf>` / `<minimumf>` into a shape all of whose axes have extent one is the fold of
    the operation over every entry of its operand, from the accumulator's value (`multiReduction_maximumf_total`,
    `multiReduction_minimumf_total`);
  • a one-operand `stablehlo.reduce` with such a body into such a shape (rank zero included) is the same fold, from
    the initial value's one entry (`hostReduce_total`).
  So a kernel that reduces a `[1, a, b]` view over axes 1 and 2 and a reference that reduces the `[a, b]` array over
  axes 0 and 1 compute one number.
-/
import Idealize.ShloMosaic.PureOps.Reduce
import Idealize.ShloMosaic.PureOps.Ideal.Laws

namespace Idealize.ShloMosaic.ReduceTotal

open Idealize.ShloMosaic

variable {α : Type}

/-- A fold of a commutative, associative operation over all of a finite type is unchanged when the family is
    re-indexed by a bijection. -/
theorem fold_univ_comp_equiv {ι κ : Type} [Fintype ι] [Fintype κ] (op : α → α → α) [Std.Commutative op]
    [Std.Associative op] (b : α) (e : ι ≃ κ) (v : κ → α) :
    Finset.univ.fold op b (fun i => v (e i)) = Finset.univ.fold op b v := by
  classical
  have h := Finset.fold_image (op := op) (b := b) (f := v) (g := e) (s := Finset.univ)
    (fun _ _ _ _ hxy => e.injective hxy)
  rw [Finset.image_univ_equiv] at h
  exact h.symm

/-- A shape cast only renames indices, so the fold over all entries of the cast is the fold over all entries of
    the operand. -/
theorem fold_univ_shapeCast {s t : Shape} (op : α → α → α) [Std.Commutative op] [Std.Associative op] (b : α)
    (v : s.Idx → α) (h : s.ShapeCasts t) :
    Finset.univ.fold op b (shapeCast t v h) = Finset.univ.fold op b v :=
  fold_univ_comp_equiv op b (Shape.reshapeEquiv h) v

section Float
variable {F : FTy → Type} [FloatOps F] {s t : Shape} {φ : FTy} {axes : List (Fin s.rank)}

/-- Into a shape whose axes all have extent one, every source index drops to the one result index. -/
theorem filter_drop_eq_univ (drop : s.Idx → t.Idx) (ht : ∀ b, t.size b = 1) (j : t.Idx) :
    (Finset.univ.filter fun i => drop i = j) = Finset.univ :=
  Finset.filter_true_of_mem fun i _ => funext fun b => Fin.ext (by
    have := (drop i b).isLt; have := (j b).isLt; have := ht b; omega)

/-- A `<maximumf>` reduction into a shape of unit axes: the maximum, from the accumulator's value, over every entry. -/
theorem multiReduction_maximumf_total [Std.Commutative (FloatOps.maximumf (F := F) (φ := φ))]
    [Std.Associative (FloatOps.maximumf (F := F) (φ := φ))] (src : FVec F s φ) (acc : BitVec φ.bits)
    (h : s.Reduces axes t) (ht : ∀ b, t.size b = 1) (hφ : FKind.Formats φ) (hacc : acc = FKind.maximumf.neutral φ hφ)
    (j : t.Idx) :
    multiReduction .maximumf axes t src acc h hφ hacc j
      = Finset.univ.fold FloatOps.maximumf (FloatOps.ofBits φ acc) src := by
  rw [multiReduction_maximumf_eq_fold, filter_drop_eq_univ h.drop ht j]

/-- The same for `<minimumf>`. -/
theorem multiReduction_minimumf_total [Std.Commutative (FloatOps.minimumf (F := F) (φ := φ))]
    [Std.Associative (FloatOps.minimumf (F := F) (φ := φ))] (src : FVec F s φ) (acc : BitVec φ.bits)
    (h : s.Reduces axes t) (ht : ∀ b, t.size b = 1) (hφ : FKind.Formats φ) (hacc : acc = FKind.minimumf.neutral φ hφ)
    (j : t.Idx) :
    multiReduction .minimumf axes t src acc h hφ hacc j
      = Finset.univ.fold FloatOps.minimumf (FloatOps.ofBits φ acc) src := by
  rw [multiReduction_minimumf_eq_fold, filter_drop_eq_univ h.drop ht j]

end Float

/-- A one-operand host reduction with a commutative, associative body into a shape of unit axes (a scalar included):
    the fold, from the initial value's entry, over every entry of the operand. -/
theorem hostReduce_total {s t u : Shape} {axes : List (Fin s.rank)} (f : α → α → α) [Std.Commutative f]
    [Std.Associative f] (x : s.Idx → α) (init : u.Idx → α) (h : s.ReducesTo axes t) (hu : 0 < u.numel)
    (ht : ∀ b, t.size b = 1) (j : t.Idx) :
    Host.reduce f x init h hu j = Finset.univ.fold f (init (Shape.Idx.first hu)) x := by
  rw [Host.reduce_eq_fold, filter_drop_eq_univ h.drop ht j]

end Idealize.ShloMosaic.ReduceTotal
-- ==== Proof.Spec.lean ====
/-
  The function both programs compute, over the extended reals.

  For a weight matrix `w` (1024 × 1024) let `hi` and `lo` be its largest and smallest entries (the maximum from −∞
  and the minimum from +∞ over all entries). Each entry is rescaled to `(w − lo) / (hi − lo)`, multiplied by 15,
  rounded to the nearest integer (ties to even), divided by 15, scaled back by `(hi − lo)` and shifted by `lo`;
  an entry that was exactly zero is then set back to zero by multiplying with the indicator "w ≠ 0" (`fakeQuant`).
  The result is `linear x w b`: `out[t, n] = Σₖ x[t, k] · fakeQuant(w)[n, k] + b[n]`.

  Both the largest and the smallest entry are folds of a commutative, associative operation over the set of all
  indices, so they do not depend on the order, nor on whether the matrix is first viewed as `[1, 1024, 1024]`
  (`vecMax_eq`, `vecMin_eq`: a lane reduction of that view; `hostMax_eq`, `hostMin_eq`: a reduction to a scalar).
-/
import Idealize.ShloMosaic.PureOps.Ideal
import Idealize.ShloMosaic.Lib.ValueIdx
import proofs.«148043_j6030134083893_1_alg».proof.Proof.LibReduceTotal

noncomputable section

open scoped BigOperators

namespace Cert.Spec

open Idealize.ShloMosaic Idealize.ShloMosaic.ValueIdx Idealize.ShloMosaic.ReduceTotal

/-- The weight matrix's shape, the activations' (and the result's), the bias's. -/
abbrev SW : Shape := ⟨2, ![1024, 1024]⟩
abbrev SX : Shape := ⟨2, ![16384, 1024]⟩
abbrev SB : Shape := ⟨1, ![1024]⟩

/-- The largest entry of the matrix: the maximum over all entries, from −∞. -/
def wmax (w : FVec Ideal SW .f32) : Ideal .f32 :=
  Finset.univ.fold FloatOps.maximumf (FloatOps.ofBits .f32 0xFF800000#32) w

/-- The smallest entry of the matrix: the minimum over all entries, from +∞. -/
def wmin (w : FVec Ideal SW .f32) : Ideal .f32 :=
  Finset.univ.fold FloatOps.minimumf (FloatOps.ofBits .f32 0x7F800000#32) w

/-- The indicator of "x ≠ 0" as a number: 1 where the entry is not zero, 0 where it is. -/
def nonzero (x : Ideal .f32) : Ideal .f32 :=
  FloatOps.uitofp .f32 (FloatOps.cmpf .une x (FloatOps.ofBits .f32 0x00000000#32))

/-- One entry `x` quantized to 16 levels between `lo` and `hi`, zero kept zero. -/
def quant (hi lo x : Ideal .f32) : Ideal .f32 :=
  ((hi - lo) * Ideal.div (Ideal.liftRound Ideal.roundHalfEven
      (Ideal.ofBits .f32 0x41700000#32 * Ideal.div (x - lo) (hi - lo))) (Ideal.ofBits .f32 0x41700000#32) + lo)
    * nonzero x

/-- The quantized weight matrix. -/
def fakeQuant (w : FVec Ideal SW .f32) : FVec Ideal SW .f32 :=
  fun i => quant (wmax w) (wmin w) (w i)

/-- The linear layer on the quantized weights: row `t` of `x` against row `n` of the quantized matrix, plus the bias. -/
def linear (x : FVec Ideal SX .f32) (w : FVec Ideal SW .f32) (b : FVec Ideal SB .f32) : FVec Ideal SX .f32 :=
  fun i => (∑ k : Fin 1024, x (ix2 (⟨(i 0).val, (i 0).isLt⟩ : Fin 16384) k)
      * fakeQuant w (ix2 (⟨(i 1).val, (i 1).isLt⟩ : Fin 1024) k))
    + b (ix1 (⟨(i 1).val, (i 1).isLt⟩ : Fin 1024))

/-! ## The two spellings of the largest and the smallest entry -/

/-- A lane maximum of the matrix viewed `[1, 1024, 1024]`, over its last two axes, read out of the one-element result:
    the largest entry. -/
theorem vecMax_eq (w : FVec Ideal SW .f32) (h1 : SW.ShapeCasts ⟨3, ![1, 1024, 1024]⟩)
    (h2 : (⟨3, ![1, 1024, 1024]⟩ : Shape).Reduces [1, 2] ⟨1, ![1]⟩) (hφ : FKind.Formats .f32)
    (hacc : (0xFF800000#32 : BitVec (FTy.bits .f32)) = FKind.maximumf.neutral .f32 hφ)
    (h3 : (⟨1, ![1]⟩ : Shape).ShapeCasts ⟨3, ![1, 1, 1]⟩)
    (h4 : ∀ a, (![0, 0, 0] : Fin 3 → Nat) a < (⟨3, ![1, 1, 1]⟩ : Shape).size a) :
    extractAt ![0, 0, 0] (shapeCast ⟨3, ![1, 1, 1]⟩
      (multiReduction .maximumf [1, 2] ⟨1, ![1]⟩ (shapeCast ⟨3, ![1, 1024, 1024]⟩ w h1) 0xFF800000#32 h2 hφ hacc) h3) h4
      = wmax w := by
  unfold extractAt shapeCast
  rw [multiReduction_maximumf_total _ _ h2 (fun b => match b with | ⟨0, _⟩ => rfl)]
  exact fold_univ_shapeCast _ _ w h1

/-- The same for the smallest entry. -/
theorem vecMin_eq (w : FVec Ideal SW .f32) (h1 : SW.ShapeCasts ⟨3, ![1, 1024, 1024]⟩)
    (h2 : (⟨3, ![1, 1024, 1024]⟩ : Shape).Reduces [1, 2] ⟨1, ![1]⟩) (hφ : FKind.Formats .f32)
    (hacc : (0x7F800000#32 : BitVec (FTy.bits .f32)) = FKind.minimumf.neutral .f32 hφ)
    (h3 : (⟨1, ![1]⟩ : Shape).ShapeCasts ⟨3, ![1, 1, 1]⟩)
    (h4 : ∀ a, (![0, 0, 0] : Fin 3 → Nat) a < (⟨3, ![1, 1, 1]⟩ : Shape).size a) :
    extractAt ![0, 0, 0] (shapeCast ⟨3, ![1, 1, 1]⟩
      (multiReduction .minimumf [1, 2] ⟨1, ![1]⟩ (shapeCast ⟨3, ![1, 1024, 1024]⟩ w h1) 0x7F800000#32 h2 hφ hacc) h3) h4
      = wmin w := by
  unfold extractAt shapeCast
  rw [multiReduction_minimumf_total _ _ h2 (fun b => match b with | ⟨0, _⟩ => rfl)]
  exact fold_univ_shapeCast _ _ w h1

/-- A reduction of the matrix to a scalar by `maximum`, from the constant −∞: the largest entry. -/
theorem hostMax_eq (w : FVec Ideal SW .f32) (h : SW.ReducesTo [0, 1] ⟨0, ![]⟩) (hu : 0 < (⟨0, ![]⟩ : Shape).numel)
    (j : (⟨0, ![]⟩ : Shape).Idx) :
    Host.reduce FloatOps.maximumf w (constant (F := Ideal) ⟨0, ![]⟩ .f32 0xFF800000#32) h hu j = wmax w := by
  rw [hostReduce_total _ _ _ h hu (fun b => b.elim0)]
  rfl

/-- A reduction of the matrix to a scalar by `minimum`, from the constant +∞: the smallest entry. -/
theorem hostMin_eq (w : FVec Ideal SW .f32) (h : SW.ReducesTo [0, 1] ⟨0, ![]⟩) (hu : 0 < (⟨0, ![]⟩ : Shape).numel)
    (j : (⟨0, ![]⟩ : Shape).Idx) :
    Host.reduce FloatOps.minimumf w (constant (F := Ideal) ⟨0, ![]⟩ .f32 0x7F800000#32) h hu j = wmin w := by
  rw [hostReduce_total _ _ _ h hu (fun b => b.elim0)]
  rfl

/-! ## The indicator, from a one-bit comparison -/

/-- A one-bit word widened to 32 bits and read as a signed integer is the bit's value: 0 or 1. -/
theorem toInt_setWidth_bit (b : BitVec 1) : ((b.setWidth 32).toInt : ℝ) = (b.toNat : ℝ) := by
  have hb : b = 0#1 ∨ b = 1#1 := by
    have h := b.isLt
    rcases Nat.lt_or_ge b.toNat 1 with h0 | h1
    · left; exact BitVec.eq_of_toNat_eq (by simp; omega)
    · right; exact BitVec.eq_of_toNat_eq (by simp; omega)
  rcases hb with rfl | rfl <;> simp

/-- The indicator a kernel builds by widening an "ordered and not equal" bit and converting it as a signed integer
    is the one a conversion of the "not equal" bit as an unsigned integer gives: there is no unordered pair among
    the extended reals, and the widened bit is never negative. -/
theorem nonzero_of_widened (x : Ideal .f32) :
    (FloatOps.sitofp (F := Ideal) .f32 ((FloatOps.cmpf .one x (FloatOps.ofBits .f32 0x00000000#32)).setWidth 32) : Ideal .f32)
      = nonzero x := by
  show (((Ideal.cmp .one x _).setWidth 32).toInt : ℝ) = (((Ideal.cmp .une x _).toNat : ℝ) : EReal)
  rw [toInt_setWidth_bit]
  rfl

end Cert.Spec

end
-- ==== Proof.KernelBodies.lean ====
/-
  What the two kernel bodies compute, entry by entry, over the extended reals.

  The first body takes the whole weight matrix `w` and stores the TRANSPOSE of its quantization: the entry at
  `(k, q)` of what it stores is `fakeQuant w` at `(q, k)` (`quant_apply`). Its arithmetic is pointwise once the two
  extremes are known (`rescale`), the extremes are lane reductions of the matrix viewed `[1, 1024, 1024]`, which
  are the largest and smallest entries (`laneMax_eq`, `laneMin_eq`), the narrowing to bf16 changes nothing over
  the reals, and a transpose swaps the two coordinates.

  The second body takes a 1024-row block `x` of the activations, the stored matrix `wt` and the bias `b` and stores
  `x · wt + b`: at `(p, q)` the sum over `k` of `x[p, k] · wt[k, q]`, plus `b[q]` (`gemm_apply`): a matrix product
  into a zero accumulator is the plain sum over the contracted coordinate (`matmul_ix2`), and the bias is one row
  repeated down the block.
-/
import proofs.«148043_j6030134083893_1_alg».proof.Proof.Gen.KernelIdeal.Skeleton
import proofs.«148043_j6030134083893_1_alg».proof.Proof.Spec
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The quantizing body -/

/-- The quantizing body's pointwise arithmetic, as a function of the two extremes `hi`, `lo` it has reduced the
    matrix to: `((hi − lo) · (round(15 · (w − lo)/(hi − lo)) / 15) + lo) · [w ≠ 0]`, the indicator built from an
    "ordered and not equal" bit widened to a word and converted as a signed integer. -/
def rescale (hi lo : Ideal .f32) (w : FVec Ideal S1024x1024 .f32) : FVec Ideal S1024x1024 .f32 :=
  mulf
    (addf
      (mulf (broadcast S1024x1024 (Scalar.subf hi lo))
        (divf
          (roundeven
            (mulf (broadcast S1024x1024 (FloatOps.ofBits .f32 0x41700000#32))
              (divf (subf w (broadcast S1024x1024 lo)) (broadcast S1024x1024 (Scalar.subf hi lo)))))
          (broadcast S1024x1024 (FloatOps.ofBits .f32 0x41700000#32))))
      (broadcast S1024x1024 lo))
    (sitofp .f32 (extui 32 (cmpf .one w (broadcast S1024x1024 (FloatOps.ofBits .f32 0x00000000#32))) natLt_1_32))

/-- At every entry that arithmetic is the specification's `quant` of the entry: the operations agree one by one,
    and the two spellings of the indicator are one number (`Spec.nonzero_of_widened`). -/
theorem rescale_apply (hi lo : Ideal .f32) (w : FVec Ideal S1024x1024 .f32) (i : S1024x1024.Idx) :
    rescale hi lo w i = Spec.quant hi lo (w i) := by
  unfold Spec.quant
  rw [← Spec.nonzero_of_widened]
  rfl

/-- The largest and the smallest entry as the body computes them: the matrix viewed `[1, 1024, 1024]`, reduced over
    its last two axes from −∞ (from +∞), the one-element result read out. -/
def laneMax (w : FVec Ideal S1024x1024 .f32) : Ideal .f32 :=
  extractAt ![0, 0, 0] (shapeCast S1x1x1 (multiReduction .maximumf [1, 2] S1
    (shapeCast S1x1024x1024 w shapeCasts_S1024x1024_S1x1024x1024) 0xFF800000#32 reduces_S1x1024x1024_S1 (.inl rfl) rfl)
    shapeCasts_S1_S1x1x1) inpos_S1x1x1_p0_0_0
def laneMin (w : FVec Ideal S1024x1024 .f32) : Ideal .f32 :=
  extractAt ![0, 0, 0] (shapeCast S1x1x1 (multiReduction .minimumf [1, 2] S1
    (shapeCast S1x1024x1024 w shapeCasts_S1024x1024_S1x1024x1024) 0x7F800000#32 reduces_S1x1024x1024_S1 (.inl rfl) rfl)
    shapeCasts_S1_S1x1x1) inpos_S1x1x1_p0_0_0

theorem laneMax_eq (w : FVec Ideal S1024x1024 .f32) : laneMax w = Spec.wmax w := Spec.vecMax_eq w _ _ _ _ _ _
theorem laneMin_eq (w : FVec Ideal S1024x1024 .f32) : laneMin w = Spec.wmin w := Spec.vecMin_eq w _ _ _ _ _ _

/-- The body's stored value is the transpose, narrowed to bf16, of `rescale` at the lane extremes: the printed
    operations, regrouped. -/
theorem pay_eq (w : Vec Ideal S1024x1024 .f32) :
    k0_pay1 (F := Ideal) w = truncf .bf16 (transpose S1024x1024 [1, 0] (rescale (laneMax w) (laneMin w) w)
      transposes_S1024x1024_p1_0_S1024x1024) bitsLt_bf16_f32 := rfl

/-- What the quantizing body stores at `(k, q)`: the quantized matrix at `(q, k)`. -/
theorem quant_apply (w : Vec Ideal S1024x1024 .f32) (k q : Fin 1024) :
    k0_pay1 (F := Ideal) w (ix2 k q) = Spec.fakeQuant w (ix2 q k) := by
  rw [pay_eq]
  refine (transpose_ix2_apply (rescale (laneMax w) (laneMin w) w) _ k q).trans ?_
  rw [rescale_apply, laneMax_eq, laneMin_eq]
  rfl

/-! ## The product body -/

/-- The product's operand indices at an output index and a contraction index, axis by axis: the left operand is read
    at (output row, contraction), the right at (contraction, output column). -/
theorem lhs_mm_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_mm_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_mm_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_mm_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product into a zero accumulator, at `(p, q)`: row `p` of the left block against column `q` of the
    right, summed over the contracted coordinate. -/
theorem matmul_ix2 (a b : FVec Ideal S1024x1024 .bf16) (p q : Fin 1024) :
    matmul dot_S1024x1024_S1024x1024_S1024x1024_1_0_0_1_n_n none a b (constant S1024x1024 .f32 0x00000000#32) (ix2 p q)
      = ∑ k : Fin 1024, a (ix2 p k) * b (ix2 k q) := by
  refine (Ideal.matmul_constant_zero_apply dot_S1024x1024_S1024x1024_S1024x1024_1_0_0_1_n_n none a b (ix2 p q)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun ax => Fin.ext (by
    match ax with
    | ⟨0, _⟩ => exact lhs_mm_0 _ _
    | ⟨1, _⟩ => exact (lhs_mm_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun ax => Fin.ext (by
    match ax with
    | ⟨0, _⟩ => exact (rhs_mm_0 _ _).trans hk
    | ⟨1, _⟩ => exact rhs_mm_1 _ _)
  rw [el, er]

/-- What the product body stores at `(p, q)` of its block: row `p` of the activations' block against column `q` of
    the stored matrix, plus the bias at `q` (the narrowing of the activations to bf16 changes nothing over the reals;
    the bias is cast to one row and the row repeated). -/
theorem gemm_apply (x : Vec Ideal S1024x1024 .f32) (wt : Vec Ideal S1024x1024 .bf16) (b : Vec Ideal S1024 .f32) (p q : Fin 1024) :
    k1_pay1 (F := Ideal) x wt b (ix2 p q) = (∑ k : Fin 1024, x (ix2 p k) * wt (ix2 k q)) + b (ix1 q) := by
  unfold k1_pay1
  rw [addf_apply, matmul_ix2, broadcastTo_1b_ab_apply, shapeCast_self, shapeCast_self, shapeCast_a_1a_apply]
  rfl

end Cert.KernelIdeal.Body

end
-- ==== Proof.KernelValue.lean ====
/-
  What the kernel program leaves in its result array, over the extended reals.

  The program is two regions. The first runs at one grid point on the whole weight matrix and writes back, as one
  block that is the whole array, the transpose of the quantized matrix (`final0`: the intermediate array holds
  `fakeQuant w` at the swapped coordinates). The second runs at 16 points; point `t` reads rows `1024·t … 1024·t + 1023`
  of the activations, the whole intermediate array and the whole bias, and writes back rows `1024·t …` of the result:
  at `(p, q)` of the block, `Σₖ x[1024·t + p, k] · fakeQuant(w)[q, k] + b[q]`, which is row `1024·t + p`, column `q` of
  `Spec.linear x w b` (`flushed1`). The 16 blocks tile the result array (row `r` lies in block `r / 1024`), so the array
  ends holding `Spec.linear x w b` (`final1`), and the run's result is that (`run`).
-/
import proofs.«148043_j6030134083893_1_alg».proof.Proof.KernelIdealRun
import proofs.«148043_j6030134083893_1_alg».proof.Proof.KernelBodies
import Idealize.ShloMosaic.Lib.Pipeline.Value

set_option maxRecDepth 16384

noncomputable section

open scoped BigOperators

namespace Cert.KernelIdeal.Hand

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The three argument arrays at launch, at their literal types. -/
abbrev xarr (c : Dev nD) : FVec Ideal S16384x1024 .f32 := m ((c : Thread nD τ).loc main_arg0)
abbrev warr (c : Dev nD) : FVec Ideal S1024x1024 .f32 := m ((c : Thread nD τ).loc main_arg1)
abbrev barr (c : Dev nD) : FVec Ideal S1024 .f32 := m ((c : Thread nD τ).loc main_arg2)

theorem hz2 : (![0, 0] : Fin 2 → Nat) = fun _ => 0 := funext fun a => by fin_cases a <;> rfl
theorem hz1 : (![0] : Fin 1 → Nat) = fun _ => 0 := funext fun a => by fin_cases a <;> rfl

/-! ## What one point stores, over plain data -/

/-- The quantizing body's stored value at an index `j`, named by an index `i` with the same coordinates: the
    quantized matrix at `i`'s coordinates swapped. -/
theorem stored0 (w : Vec Ideal S1024x1024 .f32) (j i : S1024x1024.Idx) (h0 : (i 0).val = (j 0).val) (h1 : (i 1).val = (j 1).val) :
    k0_pay1 (F := Ideal) w j
      = Spec.fakeQuant w (ix2 (⟨(i 1).val, (i 1).isLt⟩ : Fin 1024) (⟨(i 0).val, (i 0).isLt⟩ : Fin 1024)) := by
  obtain ⟨p, q, rfl⟩ : ∃ (p q : Fin 1024), j = ix2 p q := ⟨j 0, j 1, eq_ix2 j⟩
  have e0 : (⟨(i 0).val, (i 0).isLt⟩ : Fin 1024) = p := Fin.ext h0
  have e1 : (⟨(i 1).val, (i 1).isLt⟩ : Fin 1024) = q := Fin.ext h1
  rw [quant_apply, e0, e1]

/-- The product body's stored value at `j` of the block of rows `1024·n …`: if the activations' block holds those
    rows of `x`, the matrix block the swapped quantized weights and the bias block the bias, it is `Spec.linear x w b` at
    the index `i` that `j` has in the whole array. -/
theorem stored1 (x : FVec Ideal S16384x1024 .f32) (w : FVec Ideal S1024x1024 .f32) (b : FVec Ideal S1024 .f32)
    (X : Vec Ideal S1024x1024 .f32) (WT : Vec Ideal S1024x1024 .bf16) (B : Vec Ideal S1024 .f32) (n : Nat)
    (hX : ∀ (p k : Fin 1024) (r : Fin 16384), r.val = n * 1024 + p.val → X (ix2 p k) = x (ix2 r k))
    (hWT : ∀ k q : Fin 1024, WT (ix2 k q) = Spec.fakeQuant w (ix2 q k))
    (hB : ∀ q : Fin 1024, B (ix1 q) = b (ix1 q))
    (j : S1024x1024.Idx) (i : S16384x1024.Idx) (h0 : (i 0).val = n * 1024 + (j 0).val) (h1 : (i 1).val = (j 1).val) :
    k1_pay1 (F := Ideal) X WT B j = Spec.linear x w b i := by
  obtain ⟨p, q, rfl⟩ : ∃ (p q : Fin 1024), j = ix2 p q := ⟨j 0, j 1, eq_ix2 j⟩
  have e1 : (⟨(i 1).val, (i 1).isLt⟩ : Fin 1024) = q := Fin.ext h1
  rw [gemm_apply]
  show _ = (∑ k : Fin 1024, x (ix2 (⟨(i 0).val, (i 0).isLt⟩ : Fin 16384) k)
      * Spec.fakeQuant w (ix2 (⟨(i 1).val, (i 1).isLt⟩ : Fin 1024) k))
    + b (ix1 (⟨(i 1).val, (i 1).isLt⟩ : Fin 1024))
  rw [e1, hB]
  refine congrArg (· + b (ix1 q)) (Finset.sum_congr rfl fun k _ => ?_)
  rw [hX p k ⟨(i 0).val, (i 0).isLt⟩ h0, hWT]

/-! ## Region 0: the intermediate array -/

/-- The one grid point's blocks are at block index (0, 0). -/
theorem idx0 : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- What the intermediate array ends holding: the quantized weights, transposed. -/
def wqt (c : Dev nD) : FVec Ideal S1024x1024 .bf16 := fun i =>
  Spec.fakeQuant (warr m c) (ix2 (⟨(i 1).val, (i 1).isLt⟩ : Fin 1024) (⟨(i 0).val, (i 0).isLt⟩ : Fin 1024))

/-- The quantizing region's input block is the whole weight matrix. -/
theorem iblk0_eq (c : Dev nD) (t : Fin cfg0.N) : (iblk0 (V0 m ρ) c 0 t : Vec Ideal S1024x1024 .f32) = warr m c := by
  obtain ⟨e0, e1, -, -⟩ := idx0 t
  funext y
  unfold iblk0
  rw [View.read_apply]
  show (m ((c : Thread nD τ).loc main_arg1) : S1024x1024.Idx → Elt Ideal .f32) _ = m ((c : Thread nD τ).loc main_arg1) y
  refine congrArg _ (funext fun a => Fin.ext ?_)
  match a with
  | ⟨0, _⟩ => show win0_0.index t (0 : Fin 2) * 1024 + 1 * (y 0).val = (y 0).val; omega
  | ⟨1, _⟩ => show win0_0.index t (1 : Fin 2) * 1024 + 1 * (y 1).val = (y 1).val; omega

/-- What the one point writes back is its block of `wqt`. -/
theorem flushed0 (c : Dev nD) (t : Fin cfg0.N) :
    (dat0 (V0 m ρ) c).flushed 1 t = ((cfg0.win 1).blk t).view.read (Elt Ideal) (wqt m c) := by
  obtain ⟨-, -, e0, e1⟩ := idx0 t
  show (cfg0.win 1).cut (grid0.coords t) ((dat0 (V0 m ρ) c).after 1 t) = _
  rw [after0_1]
  unfold out0_1
  rw [View.canon_unit_zero hz2]
  simp only [View.ld_unit_zero (S := S1024x1024) hz2]
  rw [iblk0_eq]
  funext j
  refine stored0 (warr m c) j _ ?_ ?_
  · show win0_1.index t (0 : Fin 2) * 1024 + 1 * (j 0).val = (j 0).val; omega
  · show win0_1.index t (1 : Fin 2) * 1024 + 1 * (j 1).val = (j 1).val; omega

/-- The one block is the whole array. -/
theorem cover0 (c : Dev nD) (i : S1024x1024.Idx) :
    ∃ t : Fin cfg0.N, (cfg0.win 1).flush t = true ∧ i ∈ ((cfg0.win 1).blk t).view.set := by
  refine ⟨t0_0, flush0_1 t0_0, ?_⟩
  obtain ⟨-, -, e0, e1⟩ := idx0 t0_0
  show i ∈ ((View.whole main_v0).slice (win0_1.rect t0_0)).set
  rw [View.set_slice_whole, Rect.mem_set_unit]
  intro a
  have h0 : (i 0).val < 1024 := (i 0).isLt
  have h1 : (i 1).val < 1024 := (i 1).isLt
  match a with
  | ⟨0, _⟩ => show win0_1.index t0_0 (0 : Fin 2) * 1024 ≤ (i 0).val ∧ (i 0).val < win0_1.index t0_0 (0 : Fin 2) * 1024 + 1024; omega
  | ⟨1, _⟩ => show win0_1.index t0_0 (1 : Fin 2) * 1024 ≤ (i 1).val ∧ (i 1).val < win0_1.index t0_0 (1 : Fin 2) * 1024 + 1024; omega

/-- The intermediate array after region 0. -/
theorem final0 (c : Dev nD) : (dat0 (V0 m ρ) c).arrAt 1 cfg0.N = wqt m c :=
  (dat0 (V0 m ρ) c).arrAt_eq_of_cover 1 (wqt m c) (fun t _ => flushed0 m ρ c t) (cover0 c)

/-! ## Region 1: the result array -/

/-- The product region's block indices at point `t`: the activations' and the result's blocks move down the rows with
    `t`, the matrix's and the bias's stay at the origin. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What region 1 finds in the arrays it reads: the activations and the bias as launched (region 0 touches neither), the
    intermediate array at what region 0 left. -/
theorem V1_x (c : Dev nD) : (V1 m ρ c main_arg0 : S16384x1024.Idx → Elt Ideal .f32) = xarr m c :=
  W1_of_ne m ρ c main_arg0 (by decide)
theorem V1_b (c : Dev nD) : (V1 m ρ c main_arg2 : S1024.Idx → Elt Ideal .f32) = barr m c :=
  W1_of_ne m ρ c main_arg2 (by decide)
theorem V1_wqt (c : Dev nD) : (V1 m ρ c main_v0 : S1024x1024.Idx → Elt Ideal .bf16) = wqt m c :=
  (W1_arr m ρ c 1).trans (final0 m ρ c)

/-- The activations' block at point `t` is rows `1024·t …` of the activations. -/
theorem xblk_apply (c : Dev nD) (t : Fin cfg1.N) (p k : Fin 1024) (r : Fin 16384) (hr : r.val = t.val * 1024 + p.val) :
    (iblk1 (V1 m ρ) c 0 t : Vec Ideal S1024x1024 .f32) (ix2 p k) = xarr m c (ix2 r k) := by
  obtain ⟨e0, e1, -⟩ := idx1 t
  unfold iblk1
  rw [View.read_apply]
  show (V1 m ρ c main_arg0 : S16384x1024.Idx → Elt Ideal .f32) _ = _
  rw [V1_x]
  refine congrArg _ (funext fun a => Fin.ext ?_)
  match a with
  | ⟨0, _⟩ => show win1_0.index t (0 : Fin 2) * 1024 + 1 * p.val = r.val; omega
  | ⟨1, _⟩ => show win1_0.index t (1 : Fin 2) * 1024 + 1 * k.val = k.val; omega

/-- The matrix block at every point is the whole intermediate array. -/
theorem wtblk_eq (c : Dev nD) (t : Fin cfg1.N) : (iblk1 (V1 m ρ) c 1 t : Vec Ideal S1024x1024 .bf16) = wqt m c := by
  obtain ⟨-, -, e0, e1, -⟩ := idx1 t
  funext y
  unfold iblk1
  rw [View.read_apply]
  show (V1 m ρ c main_v0 : S1024x1024.Idx → Elt Ideal .bf16) _ = _
  rw [V1_wqt]
  refine congrArg _ (funext fun a => Fin.ext ?_)
  match a with
  | ⟨0, _⟩ => show win1_1.index t (0 : Fin 2) * 1024 + 1 * (y 0).val = (y 0).val; omega
  | ⟨1, _⟩ => show win1_1.index t (1 : Fin 2) * 1024 + 1 * (y 1).val = (y 1).val; omega

/-- The bias block at every point is the whole bias. -/
theorem bblk_eq (c : Dev nD) (t : Fin cfg1.N) : (iblk1 (V1 m ρ) c 2 t : Vec Ideal S1024 .f32) = barr m c := by
  obtain ⟨-, -, -, -, e0, -⟩ := idx1 t
  funext y
  unfold iblk1
  rw [View.read_apply]
  show (V1 m ρ c main_arg2 : S1024.Idx → Elt Ideal .f32) _ = _
  rw [V1_b]
  refine congrArg _ (funext fun a => Fin.ext ?_)
  match a with
  | ⟨0, _⟩ => show win1_2.index t (0 : Fin 1) * 1024 + 1 * (y 0).val = (y 0).val; omega

/-- What point `t` writes back is its block of `Spec.linear x w b`. -/
theorem flushed1 (c : Dev nD) (t : Fin cfg1.N) :
    (dat1 (V1 m ρ) c).flushed 3 t
      = ((cfg1.win 3).blk t).view.read (Elt Ideal) (Spec.linear (xarr m c) (warr m c) (barr m c)) := by
  obtain ⟨-, -, -, -, -, e0, e1⟩ := idx1 t
  show (cfg1.win 3).cut (grid1.coords t) ((dat1 (V1 m ρ) c).after 3 t) = _
  rw [after1_3]
  unfold out1_3
  rw [View.canon_unit_zero hz2]
  simp only [View.ld_unit_zero (S := S1024x1024) hz2, View.ld_unit_zero (S := S1024) hz1]
  rw [wtblk_eq, bblk_eq]
  funext j
  refine stored1 (xarr m c) (warr m c) (barr m c) _ _ _ t.val (fun p k r hr => xblk_apply m ρ c t p k r hr)
    (fun k q => rfl) (fun q => rfl) j _ ?_ ?_
  · show win1_3.index t (0 : Fin 2) * 1024 + 1 * (j 0).val = t.val * 1024 + (j 0).val; omega
  · show win1_3.index t (1 : Fin 2) * 1024 + 1 * (j 1).val = (j 1).val; omega

/-- Row `r` of the result lies in the block of point `r / 1024`: the 16 blocks tile the array. -/
theorem cover1 (c : Dev nD) (i : S16384x1024.Idx) :
    ∃ t : Fin cfg1.N, (cfg1.win 3).flush t = true ∧ i ∈ ((cfg1.win 3).blk t).view.set := by
  have h0 : (i 0).val < 16384 := (i 0).isLt
  have h1 : (i 1).val < 1024 := (i 1).isLt
  have ht : (i 0).val / 1024 < cfg1.N := by rw [show cfg1.N = 16 from N_1]; omega
  obtain ⟨-, -, -, -, -, e0, e1⟩ := idx1 ⟨(i 0).val / 1024, ht⟩
  refine ⟨⟨(i 0).val / 1024, ht⟩, flush1_3 _, ?_⟩
  show i ∈ ((View.whole main_v1).slice (win1_3.rect ⟨(i 0).val / 1024, ht⟩)).set
  rw [View.set_slice_whole, Rect.mem_set_unit]
  intro a
  match a with
  | ⟨0, _⟩ =>
    show win1_3.index ⟨(i 0).val / 1024, ht⟩ (0 : Fin 2) * 1024 ≤ (i 0).val
      ∧ (i 0).val < win1_3.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win1_3.index ⟨(i 0).val / 1024, ht⟩ (1 : Fin 2) * 1024 ≤ (i 1).val
      ∧ (i 1).val < win1_3.index ⟨(i 0).val / 1024, ht⟩ (1 : Fin 2) * 1024 + 1024
    omega

/-- The result array after region 1. -/
theorem final1 (c : Dev nD) : (dat1 (V1 m ρ) c).arrAt 3 cfg1.N = Spec.linear (xarr m c) (warr m c) (barr m c) :=
  (dat1 (V1 m ρ) c).arrAt_eq_of_cover 3 (Spec.linear (xarr m c) (warr m c) (barr m c))
    (fun t _ => flushed1 m ρ c t) (cover1 c)

/-! ## The run -/

/-- The run of the kernel program: its result array ends at `Spec.linear` of the arguments as launched, the arguments
    unchanged. -/
theorem run : θ_run defs (onTc (τ := τ) (main (F := Ideal))) ⟨m, fun _ => 0, ρ⟩ fun r => ∀ c : Dev nD,
      r.2.mem ((c.tc : Thread nD τ).loc main_v1) = Spec.linear (xarr m c) (warr m c) (barr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans ((W2_arr m ρ c 3).trans (final1 m ρ c)), (h c).2⟩)
    (Cert.KernelIdeal.Run.run_main m ρ)

end Cert.KernelIdeal.Hand

end
-- ==== Proof.RefValue.lean ====
/-
  The reference computes the specification.

  Read one operation at a time, the reference's weight stage is `fakeQuant` of the weight matrix entry by entry: its
  two reductions to a scalar are the largest and the smallest entry (`Spec.hostMax_eq`, `Spec.hostMin_eq`), every
  scalar is broadcast to the matrix's shape, and the remaining operations are pointwise (`quant_ref`). Its result is
  then the contraction of row `t` of the activations with row `n` of that matrix (a `dot_general` contracting the
  second axis of both operands), plus the bias broadcast over the rows: `Spec.linear` (`result_ref`).
-/
import proofs.«148043_j6030134083893_1_alg».proof.Proof.Gen.ReferenceIdeal.Read
import proofs.«148043_j6030134083893_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's maximum over both axes is the largest entry, its minimum the smallest. -/
theorem max_ref (w : FVec Ideal S1024x1024 .f32) (j : S_.Idx) : val_main_v3 (F := Ideal) w j = Spec.wmax w :=
  Spec.hostMax_eq w _ _ j
theorem min_ref (w : FVec Ideal S1024x1024 .f32) (j : S_.Idx) : val_main_v4 (F := Ideal) w j = Spec.wmin w :=
  Spec.hostMin_eq w _ _ j

/-- The reference's pointwise operations on one entry `x`, given the two extremes, are the specification's `quant`
    (stated over variables, so that the two extremes stay opaque). -/
theorem quant_point (hi lo x : Ideal .f32) :
    FloatOps.mulf
      (FloatOps.addf
        (FloatOps.mulf (FloatOps.subf hi lo)
          (FloatOps.hostDivf
            (FloatOps.hostUnary .roundeven
              (FloatOps.mulf (FloatOps.ofBits .f32 0x41700000#32) (FloatOps.hostDivf (FloatOps.subf x lo) (FloatOps.subf hi lo))))
            (FloatOps.ofBits .f32 0x41700000#32)))
        lo)
      (FloatOps.uitofp .f32 (FloatOps.cmpf .une x (FloatOps.ofBits .f32 0x00000000#32)))
      = Spec.quant hi lo x := rfl

/-- The reference's quantized weights, entry by entry. -/
theorem quant_ref (w : FVec Ideal S1024x1024 .f32) (i : S1024x1024.Idx) :
    val_main_v19 (F := Ideal) w i = Spec.fakeQuant w i := by
  rw [val_main_v19_apply, val_main_v18_apply, val_main_v17_apply, val_main_v16_apply, val_main_v15_apply,
    val_main_v14_apply, val_main_v13_apply, val_main_cst_3_apply, val_main_v12_apply, val_main_v11_apply,
    val_main_v10_apply, val_main_cst_2_apply, val_main_v9_apply, val_main_v8_apply, val_main_v7_apply,
    val_main_v6_apply, val_main_v5_apply, val_main_v2_apply, val_main_v1_apply, val_main_v0_apply,
    val_main_cst_apply]
  simp only [max_ref, min_ref]
  exact quant_point (Spec.wmax w) (Spec.wmin w) (w i)

/-- The reference's result is the linear layer on the quantized weights. -/
theorem result_ref (x : FVec Ideal S16384x1024 .f32) (w : FVec Ideal S1024x1024 .f32) (b : FVec Ideal S1024 .f32) :
    val_main_v23 (F := Ideal) x w b = Spec.linear x w b := by
  funext i
  have el : ∀ k : Fin 1024, lidx_main_v20 i k = ix2 (⟨(i 0).val, (i 0).isLt⟩ : Fin 16384) k := fun k =>
    funext fun a => by match a with | ⟨0, _⟩ => rfl | ⟨1, _⟩ => rfl
  have er : ∀ k : Fin 1024, ridx_main_v20 i k = ix2 (⟨(i 1).val, (i 1).isLt⟩ : Fin 1024) k := fun k =>
    funext fun a => by match a with | ⟨0, _⟩ => rfl | ⟨1, _⟩ => rfl
  have eb : idx_main_v21 (idx_main_v22 i) = ix1 (⟨(i 1).val, (i 1).isLt⟩ : Fin 1024) :=
    funext fun a => by match a with | ⟨0, _⟩ => rfl
  rw [val_main_v23_apply, val_main_v20_apply, val_main_v22_apply, val_main_v21_apply, eb]
  unfold Spec.linear
  simp only [quant_ref, el, er, Ideal.addf_def]

end Cert.ReferenceIdeal.RefValue

end
-- ==== Proof.lean ====
/-
  A linear layer on fake-quantized weights: the kernel program against its reference, over the extended reals.

  Both programs compute `out[t, n] = Σₖ x[t, k] · Q(w)[n, k] + b[n]`, where `Q` rescales every entry of `w` between
  the matrix's smallest and largest entry, rounds it to one of 16 levels, scales it back, and keeps exact zeros at
  zero (`Spec.linear`, `Spec.fakeQuant`).

  The kernel program does it in two regions: one that stores the TRANSPOSE of `Q(w)` (narrowed to bf16, which is the
  identity over the reals), and a product, tiled over 16 blocks of 1024 rows of `x`, of each block with the stored
  matrix, plus the bias. Its largest and smallest entries are lane reductions of the matrix viewed `[1, 1024, 1024]`;
  the reference's are reductions to a scalar: both are the fold of a commutative, associative operation over the set
  of all entries, so they agree. The product against the transposed matrix contracts the same pairs of entries as the
  reference's contraction of the second axes of `x` and `Q(w)`. No algebraic law that fails at infinities is used:
  the two sides are the same expression entry by entry, so the precondition is never opened.

  `Cert.KernelIdeal.Hand.run` is the kernel program's run with its result named, `Cert.ReferenceIdeal.RefValue.result_ref`
  says the reference's result is the specification; the claims below put them side by side.
-/
import proofs.«148043_j6030134083893_1_alg».proof.Defs
import proofs.«148043_j6030134083893_1_alg».proof.Proof.Gen.Kernel
import proofs.«148043_j6030134083893_1_alg».proof.Proof.Gen.Kernel.Skeleton
import proofs.«148043_j6030134083893_1_alg».proof.Proof.Gen.Kernel.Launch
import proofs.«148043_j6030134083893_1_alg».proof.Proof.Gen.Kernel.Points
import proofs.«148043_j6030134083893_1_alg».proof.Proof.Gen.Kernel.Frame
import proofs.«148043_j6030134083893_1_alg».proof.Proof.Gen.KernelIdeal
import proofs.«148043_j6030134083893_1_alg».proof.Proof.Gen.KernelIdeal.Skeleton
import proofs.«148043_j6030134083893_1_alg».proof.Proof.Gen.KernelIdeal.Launch
import proofs.«148043_j6030134083893_1_alg».proof.Proof.Gen.KernelIdeal.Points
import proofs.«148043_j6030134083893_1_alg».proof.Proof.Gen.KernelIdeal.Frame
import proofs.«148043_j6030134083893_1_alg».proof.Proof.Gen.ReferenceIdeal
import proofs.«148043_j6030134083893_1_alg».proof.Proof.Gen.ReferenceIdeal.Run
import proofs.«148043_j6030134083893_1_alg».proof.Proof.Gen.ReferenceIdeal.Read
import proofs.«148043_j6030134083893_1_alg».proof.Proof.Gen.Pre_finite_inputs
import proofs.«148043_j6030134083893_1_alg».proof.Proof.KernelValue
import proofs.«148043_j6030134083893_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x`, `w` and `b`, both programs end with their result array at
    `Spec.linear x w b`. -/
theorem algebraic : Cert.algebraic_KernelIdeal_ReferenceIdeal := by
  intro m ρ m' ρ' _ hagree
  refine ⟨fun c => Cert.Spec.linear (Cert.KernelIdeal.Hand.xarr m c) (Cert.KernelIdeal.Hand.warr m c)
    (Cert.KernelIdeal.Hand.barr m c), Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v23_eq _ _ _).trans ((Cert.ReferenceIdeal.RefValue.result_ref _ _ _).trans ?_)
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
